-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S50000x10 : Shape := ⟨2, ![50000, 10]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel

variable [Facts]

def fn {F : FTy → Type} [FloatOps F] (main_arg0 : FVec F S200000x256 .f32) (main_arg1 : IVec S50000x10 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  main_v3
-- ==== Kernel.lean ====
abbrev S200000x256 : Shape := ⟨2, ![200000, 256]⟩
abbrev S50000x10 : Shape := ⟨2, ![50000, 10]⟩
abbrev S50000x1 : Shape := ⟨2, ![50000, 1]⟩
abbrev S50000x9 : Shape := ⟨2, ![50000, 9]⟩
abbrev S_ : Shape := ⟨0, ![]⟩
abbrev S50000x1x1 : Shape := ⟨3, ![50000, 1, 1]⟩
abbrev S50000x1x256 : Shape := ⟨3, ![50000, 1, 256]⟩
abbrev S50000x9x1 : Shape := ⟨3, ![50000, 9, 1]⟩
abbrev S50000x9x256 : Shape := ⟨3, ![50000, 9, 256]⟩
abbrev S50000x256 : Shape := ⟨2, ![50000, 256]⟩
abbrev S1x1 : Shape := ⟨2, ![1, 1]⟩
abbrev S400x1x256 : Shape := ⟨3, ![400, 1, 256]⟩
abbrev S400x9x256 : Shape := ⟨3, ![400, 9, 256]⟩
abbrev S400x256 : Shape := ⟨2, ![400, 256]⟩
abbrev S400 : Shape := ⟨1, ![400]⟩
abbrev S400x1 : Shape := ⟨2, ![400, 1]⟩
abbrev S400x9 : Shape := ⟨2, ![400, 9]⟩
abbrev S1x400 : Shape := ⟨2, ![1, 400]⟩
abbrev S1 : Shape := ⟨1, ![1]⟩

abbrev nBuf : Space → Nat
  | .hbm => 25
  | .vmem => 8
  | .smem => 0
  | _ => 0

abbrev bufTy : (tb : Table) → Fin (tcTables nBuf tb) → BufTy
  | .hbm, ⟨0, _⟩ => ⟨S200000x256, .f32⟩
  | .hbm, ⟨1, _⟩ => ⟨S50000x10, .i32⟩
  | .hbm, ⟨2, _⟩ => ⟨S50000x1, .i32⟩
  | .hbm, ⟨3, _⟩ => ⟨S50000x9, .i32⟩
  | .hbm, ⟨4, _⟩ => ⟨S_, .i32⟩
  | .hbm, ⟨5, _⟩ => ⟨S50000x1, .i32⟩
  | .hbm, ⟨6, _⟩ => ⟨S50000x1, .i1⟩
  | .hbm, ⟨7, _⟩ => ⟨S_, .i32⟩
  | .hbm, ⟨8, _⟩ => ⟨S50000x1, .i32⟩
  | .hbm, ⟨9, _⟩ => ⟨S50000x1, .i32⟩
  | .hbm, ⟨10, _⟩ => ⟨S50000x1, .i32⟩
  | .hbm, ⟨11, _⟩ => ⟨S50000x1x1, .i32⟩
  | .hbm, ⟨12, _⟩ => ⟨S50000x1x256, .f32⟩
  | .hbm, ⟨13, _⟩ => ⟨S_, .i32⟩
  | .hbm, ⟨14, _⟩ => ⟨S50000x9, .i32⟩
  | .hbm, ⟨15, _⟩ => ⟨S50000x9, .i1⟩
  | .hbm, ⟨16, _⟩ => ⟨S_, .i32⟩
  | .hbm, ⟨17, _⟩ => ⟨S50000x9, .i32⟩
  | .hbm, ⟨18, _⟩ => ⟨S50000x9, .i32⟩
  | .hbm, ⟨19, _⟩ => ⟨S50000x9, .i32⟩
  | .hbm, ⟨20, _⟩ => ⟨S50000x9x1, .i32⟩
  | .hbm, ⟨21, _⟩ => ⟨S50000x9x256, .f32⟩
  | .hbm, ⟨22, _⟩ => ⟨S50000x256, .f32⟩
  | .hbm, ⟨23, _⟩ => ⟨S1x1, .f32⟩
  | .hbm, ⟨24, _⟩ => ⟨S_, .f32⟩
  | .local _ .vmem, ⟨0, _⟩ => ⟨S400x1x256, .f32⟩
  | .local _ .vmem, ⟨1, _⟩ => ⟨S400x1x256, .f32⟩
  | .local _ .vmem, ⟨2, _⟩ => ⟨S400x9x256, .f32⟩
  | .local _ .vmem, ⟨3, _⟩ => ⟨S400x9x256, .f32⟩
  | .local _ .vmem, ⟨4, _⟩ => ⟨S400x256, .f32⟩
  | .local _ .vmem, ⟨5, _⟩ => ⟨S400x256, .f32⟩
  | .local _ .vmem, ⟨6, _⟩ => ⟨S1x1, .f32⟩
  | .local _ .vmem, ⟨7, _⟩ => ⟨S1x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v54 : BitVec 1 := Scalar.cmpi .eq arg0 c124_i32
  let v55 : BitVec 32 := Scalar.extui v54
  let c0_i32_22 : BitVec 32 := 0#32
  let v56 : BitVec 1 := Scalar.cmpi .ne v55 c0_i32_22
  v56

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x9x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S50000x10_S50000x1_0_0 : S50000x10.Slices ![0, 0] S50000x1
  slices_S50000x10_S50000x9_0_1 : S50000x10.Slices ![0, 1] S50000x9
  bcast_S_S50000x1 : S_.BroadcastsInDim S50000x1 (![] : Fin 0 → Fin S50000x1.rank)
  bcast_S50000x1_S50000x1x1_0_1 : S50000x1.BroadcastsInDim S50000x1x1 (![0, 1] : Fin 2 → Fin S50000x1x1.rank)
  bcast_S_S50000x9 : S_.BroadcastsInDim S50000x9 (![] : Fin 0 → Fin S50000x9.rank)
  bcast_S50000x9_S50000x9x1_0_1 : S50000x9.BroadcastsInDim S50000x9x1 (![0, 1] : Fin 2 → Fin S50000x9x1.rank)
  slices_S200000x256_S50000x256_0_0 : S200000x256.Slices ![0, 0] S50000x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S400x1x256_S400x1x256_0_0_0 : ∀ a, (![0, 0, 0] : Fin 3 → Nat) a + S400x1x256.size a ≤ S400x1x256.size a
  h_S400x1x256 : 0 < S400x1x256.numel
  shapeCasts_S400x1x256_S400x1x256 : S400x1x256.ShapeCasts S400x1x256
  inb_S400x9x256_S400x9x256_0_0_0 : ∀ a, (![0, 0, 0] : Fin 3 → Nat) a + S400x9x256.size a ≤ S400x9x256.size a
  h_S400x9x256 : 0 < S400x9x256.numel
  shapeCasts_S400x9x256_S400x9x256 : S400x9x256.ShapeCasts S400x9x256
  inb_S400x256_S400x256_0_0 : ∀ a, (![0, 0] : Fin 2 → Nat) a + S400x256.size a ≤ S400x256.size a
  h_S400x256 : 0 < S400x256.numel
  shapeCasts_S400x256_S400x256 : S400x256.ShapeCasts S400x256
  shapeCasts_S400x256_S400x1x256 : S400x256.ShapeCasts S400x1x256
  reduces_S400x256_S400 : S400x256.Reduces [1] S400
  shapeCasts_S400_S400x1 : S400.ShapeCasts S400x1
  reduces_S400x1x256_S400x1 : S400x1x256.Reduces [2] S400x1
  shapeCasts_S400x1_S400 : S400x1.ShapeCasts S400
  broadcasts_S400x1x256_S400x9x256 : S400x1x256.Broadcasts S400x9x256
  reduces_S400x9x256_S400x9 : S400x9x256.Reduces [2] S400x9
  broadcasts_S400x1_S400x9 : S400x1.Broadcasts S400x9
  reduces_S400x9_S400 : S400x9.Reduces [1] S400
  shapeCasts_S400_S1x400 : S400.ShapeCasts S1x400
  reduces_S1x400_S1 : S1x400.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  gather_S200000x256_S50000x1x1_S50000x1x256_2_0_n_n_0_2_1256_wf : GatherDims.WF S200000x256 S50000x1x1 S50000x1x256 [2] [0] [] [0] [] 2 ![1, 256]
  gather_S200000x256_S50000x9x1_S50000x9x256_2_0_n_n_0_2_1256_wf : GatherDims.WF S200000x256 S50000x9x1 S50000x9x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1x256.size a ≤ S50000x1x256.size a
  hwx0_0 : ∀ i : grid0.Coords, EltTy.bits .f32 = 32 ∨ (Rect.block (s := S50000x1x256) S400x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x9x256.size a ≤ S50000x9x256.size a
  hwx0_1 : ∀ i : grid0.Coords, EltTy.bits .f32 = 32 ∨ (Rect.block (s := S50000x9x256) S400x9x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S50000x256.size a
  hwx0_2 : ∀ i : grid0.Coords, EltTy.bits .f32 = 32 ∨ (Rect.block (s := S50000x256) S400x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S200000x256_S50000x1x1_S50000x1x256_2_0_n_n_0_2_1256 : GatherDims S200000x256 S50000x1x1 S50000x1x256 where
  offsetDims := [2]
  collapsedSliceDims := [0]
  operandBatchingDims := []
  startIndicesBatchingDims := []
  startIndexMap := [0]
  indexVectorDim := 2
  sliceSizes := ![1, 256]
  wf := gather_S200000x256_S50000x1x1_S50000x1x256_2_0_n_n_0_2_1256_wf
def gather_S200000x256_S50000x9x1_S50000x9x256_2_0_n_n_0_2_1256 : GatherDims S200000x256 S50000x9x1 S50000x9x256 where
  offsetDims := [2]
  collapsedSliceDims := [0]
  operandBatchingDims := []
  startIndicesBatchingDims := []
  startIndexMap := [0]
  indexVectorDim := 2
  sliceSizes := ![1, 256]
  wf := gather_S200000x256_S50000x9x1_S50000x9x256_2_0_n_n_0_2_1256_wf

abbrev win0_0 : Pipeline.Window sig grid0 :=
  Pipeline.Window.ofSpec (Memref.whole main_v8) S400x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S400x9x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S400x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S200000x256 : Shape := ⟨2, ![200000, 256]⟩
abbrev S50000x10 : Shape := ⟨2, ![50000, 10]⟩
abbrev S_ : Shape := ⟨0, ![]⟩
abbrev S50000x10x1 : Shape := ⟨3, ![50000, 10, 1]⟩
abbrev S50000x10x256 : Shape := ⟨3, ![50000, 10, 256]⟩
abbrev S50000x256 : Shape := ⟨2, ![50000, 256]⟩
abbrev S50000x1x256 : Shape := ⟨3, ![50000, 1, 256]⟩
abbrev S50000x1 : Shape := ⟨2, ![50000, 1]⟩
abbrev S50000 : Shape := ⟨1, ![50000]⟩
abbrev S50000x9 : Shape := ⟨2, ![50000, 9]⟩

abbrev nBuf : Space → Nat
  | .hbm => 50
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S50000x10, .i32⟩
  | .hbm, ⟨2, _⟩ => ⟨S_, .i32⟩
  | .hbm, ⟨3, _⟩ => ⟨S50000x10, .i32⟩
  | .hbm, ⟨4, _⟩ => ⟨S50000x10, .i1⟩
  | .hbm, ⟨5, _⟩ => ⟨S_, .i32⟩
  | .hbm, ⟨6, _⟩ => ⟨S50000x10, .i32⟩
  | .hbm, ⟨7, _⟩ => ⟨S50000x10, .i32⟩
  | .hbm, ⟨8, _⟩ => ⟨S50000x10, .i32⟩
  | .hbm, ⟨9, _⟩ => ⟨S50000x10x1, .i32⟩
  | .hbm, ⟨10, _⟩ => ⟨S50000x10x256, .f32⟩
  | .hbm, ⟨11, _⟩ => ⟨S50000x256, .f32⟩
  | .hbm, ⟨12, _⟩ => ⟨S50000x1x256, .f32⟩
  | .hbm, ⟨13, _⟩ => ⟨S50000x10x256, .f32⟩
  | .hbm, ⟨14, _⟩ => ⟨S50000x10x256, .f32⟩
  | .hbm, ⟨15, _⟩ => ⟨S_, .f32⟩
  | .hbm, ⟨16, _⟩ => ⟨S50000x10, .f32⟩
  | .hbm, ⟨17, _⟩ => ⟨S50000x1x256, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S50000x10x256, .f32⟩
  | .hbm, ⟨25, _⟩ => ⟨S_, .f32⟩
  | .hbm, ⟨26, _⟩ => ⟨S50000x10, .f32⟩
  | .hbm, ⟨27, _⟩ => ⟨S50000x10, .f32⟩
  | .hbm, ⟨28, _⟩ => ⟨S_, .f32⟩
  | .hbm, ⟨29, _⟩ => ⟨S50000x10, .f32⟩
  | .hbm, ⟨30, _⟩ => ⟨S50000x10, .f32⟩
  | .hbm, ⟨31, _⟩ => ⟨S50000x10, .f32⟩
  | .hbm, ⟨32, _⟩ => ⟨S50000x10, .f32⟩
  | .hbm, ⟨33, _⟩ => ⟨S50000x10, .f32⟩
  | .hbm, ⟨34, _⟩ => ⟨S50000x10, .f32⟩
  | .hbm, ⟨35, _⟩ => ⟨S_, .f32⟩
  | .hbm, ⟨36, _⟩ => ⟨S50000x10, .f32⟩
  | .hbm, ⟨37, _⟩ => ⟨S50000x10, .f32⟩
  | .hbm, ⟨38, _⟩ => ⟨S50000x1, .f32⟩
  | .hbm, ⟨39, _⟩ => ⟨S50000, .f32⟩
  | .hbm, ⟨40, _⟩ => ⟨S50000x9, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000, .f32⟩
  | .hbm, ⟨45, _⟩ => ⟨S50000, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  slices_S200000x256_S50000x256_0_0 : S200000x256.Slices ![0, 0] S50000x256
  bcast_S50000x256_S50000x1x256_0_2 : S50000x256.BroadcastsInDim S50000x1x256 (![0, 2] : Fin 2 → Fin S50000x1x256.rank)
  bcast_S50000x1x256_S50000x10x256_0_1_2 : S50000x1x256.BroadcastsInDim S50000x10x256 (![0, 1, 2] : Fin 3 → Fin S50000x10x256.rank)
  reducesTo_S50000x10x256_S50000x10_d2 : S50000x10x256.ReducesTo [2] S50000x10
  h_S_ : 0 < S_.numel
  reducesTo_S50000x1x256_S50000x1_d2 : S50000x1x256.ReducesTo [2] S50000x1
  bcast_S_S50000x1 : S_.BroadcastsInDim S50000x1 (![] : Fin 0 → Fin S50000x1.rank)
  bcast_S50000x1_S50000x10_0_1 : S50000x1.BroadcastsInDim S50000x10 (![0, 1] : Fin 2 → Fin S50000x10.rank)
  slices_S50000x10_S50000x1_0_0 : S50000x10.Slices ![0, 0] S50000x1
  shapeCasts_S50000x1_S50000 : S50000x1.ShapeCasts S50000
  slices_S50000x10_S50000x9_0_1 : S50000x10.Slices ![0, 1] S50000x9
  reducesTo_S50000x9_S50000_d1 : S50000x9.ReducesTo [1] S50000
  reducesTo_S50000_S_d0 : S50000.ReducesTo [0] S_
  gather_S200000x256_S50000x10x1_S50000x10x256_2_0_n_n_0_2_1256_wf : GatherDims.WF S200000x256 S50000x10x1 S50000x10x256 [2] [0] [] [0] [] 2 ![1, 256]

variable [Facts₀]

def gather_S200000x256_S50000x10x1_S50000x10x256_2_0_n_n_0_2_1256 : GatherDims S200000x256 S50000x10x1 S50000x10x256 where
  offsetDims := [2]
  collapsedSliceDims := [0]
  operandBatchingDims := []
  startIndicesBatchingDims := []
  startIndexMap := [0]
  indexVectorDim := 2
  sliceSizes := ![1, 256]
  wf := gather_S200000x256_S50000x10x1_S50000x10x256_2_0_n_n_0_2_1256_wf

class Facts : Prop extends Facts₀ where

variable [Facts]
-- ==== Proof.Pieces.lean ====
/-
  What each of the kernel body's three control cases leaves behind, as values.

  The body keeps a 1×1 running total in a scratch cell. At every grid point it loads the three input blocks, forms the
  tile's total `k0_pay1 (k0_pay7 pos anc) (k0_pay8 neg anc) acc` — the cell's contents `acc` plus the tile's sum — and stores
  it back into the cell. At the first point the cell is first reset (to `k0_pay3`, the zero block), so `acc` there is the
  zero block; at the later points `acc` is what the point before left. At the last point the body also stores
  `k0_pay2` of the cell's new contents (the total over the row count) into the output block.
-/
import proofs.«124811_j34359738990_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the cell ends at its contents before the point plus the tile's sum. -/
theorem sout_B (c : Dev nD) (i : grid0.Coords) (a1 : Memref sig .tc .vmem S400x1x256 .f32) (h1 : a1.IsWhole)
    (a2 : Memref sig .tc .vmem S400x9x256 .f32) (h2 : a2.IsWhole) (a3 : Memref sig .tc .vmem S400x256 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i)
    (x0 : Vec F S400x1x256 .f32) (x1 : Vec F S400x9x256 .f32) (x2 : Vec F S400x256 .f32) (xs0 : Vec F S1x1 .f32) :
    sout0_B_0 c i a1 h1 a2 h2 a3 h3 a4 h4 a5 h5 hc0 hc1 x0 x1 x2 xs0 = k0_pay1 (k0_pay7 x0 x2) (k0_pay8 x1 x2) xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S1x1) hz2, View.ld_unit_zero (S := S400x256) hz2, View.ld_unit_zero (S := S400x1x256) hz3,
    View.ld_unit_zero (S := S400x9x256) hz3]

/-- The last point: the cell likewise, -/
theorem sout_C (c : Dev nD) (i : grid0.Coords) (a1 : Memref sig .tc .vmem S400x1x256 .f32) (h1 : a1.IsWhole)
    (a2 : Memref sig .tc .vmem S400x9x256 .f32) (h2 : a2.IsWhole) (a3 : Memref sig .tc .vmem S400x256 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 : Vec F S400x1x256 .f32) (x1 : Vec F S400x9x256 .f32) (x2 : Vec F S400x256 .f32) (xs0 : Vec F S1x1 .f32) :
    sout0_C_0 c i a1 h1 a2 h2 a3 h3 a4 h4 a5 h5 hc0 hc1 x0 x1 x2 xs0 = k0_pay1 (k0_pay7 x0 x2) (k0_pay8 x1 x2) xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz2]
  simp only [View.readAt_eq_ld, h1.read_unread, h2.read_unread, h3.read_unread, h4.read_unread, h5.read_unread,
    View.ld_unit_zero (S := S1x1) hz2, View.ld_unit_zero (S := S400x256) hz2, View.ld_unit_zero (S := S400x1x256) hz3,
    View.ld_unit_zero (S := S400x9x256) hz3]

/-- and the output block at the cell's new contents over the row count. -/
theorem out_C (c : Dev nD) (i : grid0.Coords) (a1 : Memref sig .tc .vmem S400x1x256 .f32) (h1 : a1.IsWhole)
    (a2 : Memref sig .tc .vmem S400x9x256 .f32) (h2 : a2.IsWhole) (a3 : Memref sig .tc .vmem S400x256 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 : Vec F S400x1x256 .f32) (x1 : Vec F S400x9x256 .f32) (x2 : Vec F S400x256 .f32) (xs0 : Vec F S1x1 .f32) :
    out0_C_3 c i a1 h1 a2 h2 a3 h3 a4 h4 a5 h5 hc0 hc1 x0 x1 x2 xs0 = k0_pay2 (k0_pay1 (k0_pay7 x0 x2) (k0_pay8 x1 x2) xs0) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz2]
  simp only [View.readCov_unit_zero (S := S1x1) _ hz2, View.readAt_eq_ld, h1.read_unread, h2.read_unread, h3.read_unread, h4.read_unread, h5.read_unread,
    View.ld_unit_zero (S := S1x1) hz2, View.ld_unit_zero (S := S400x256) hz2, View.ld_unit_zero (S := S400x1x256) hz3,
    View.ld_unit_zero (S := S400x9x256) hz3]

/-- The first point: the cell is reset to the zero block, then the tile's sum is added to it. -/
theorem sout_A (c : Dev nD) (i : grid0.Coords) (a1 : Memref sig .tc .vmem S400x1x256 .f32) (h1 : a1.IsWhole)
    (a2 : Memref sig .tc .vmem S400x9x256 .f32) (h2 : a2.IsWhole) (a3 : Memref sig .tc .vmem S400x256 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i)
    (x0 : Vec F S400x1x256 .f32) (x1 : Vec F S400x9x256 .f32) (x2 : Vec F S400x256 .f32) :
    sout0_A_0 c i a1 h1 a2 h2 a3 h3 a4 h4 a5 h5 hc0 hc1 x0 x1 x2 = k0_pay1 (k0_pay7 x0 x2) (k0_pay8 x1 x2) (k0_pay3 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S1x1) hz2, View.ld_unit_zero (S := S400x256) hz2, View.ld_unit_zero (S := S400x1x256) hz3,
    View.ld_unit_zero (S := S400x9x256) hz3]

end Cert.KernelIdeal.Pieces

end
-- ==== Proof.Spec.lean ====
/-
  The contrastive loss both programs compute, written once over the extended reals.

  For an anchor row `a` and a row `v` of the table (each a vector of 256 entries):
    dotp a v = ∑ d, a d · v d;   nrm v = max (√(dotp v v)) ε;   sim a v = dotp a v / (nrm a · nrm v)
  with ε the f32 word of 1e-8. Row r has the anchor `a_r` (table row r) and ten picked rows `x_{r,0..9}` (table rows at
  the r-th tuple's ten indices, a negative index counted from the end, the index clamped into the table). Its loss is
    rowLoss = − log ( exp (sim a x₀) / ∑_{k=1..9} exp (sim a x_k) )
  and the result is the mean over the 50000 rows, (∑_r rowLoss_r) / 50000.

  The two programs differ only in how this is arranged, and three laws of the extended reals join them, none of which
  needs an entry to be finite: a quotient by the word of one is the dividend; zero minus x is −x; and a sum over
  50000 rows is the sum, over 125 tiles of 400 rows, of the tiles' sums (+ is commutative and associative on the
  extended reals, the infinities included), taken in tile order from zero.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.Loss

open Idealize.ShloMosaic Idealize.ShloMosaic.ValueIdx

/-! ## The loss of one row, and the mean -/

/-- The clamp under which a norm is not taken: the f32 word of 1e-8. -/
def eps : EReal := Ideal.ofBits .f32 0x322BCC77#32

/-- The inner product of two rows. -/
def dotp (a v : Fin 256 → EReal) : EReal := ∑ d, a d * v d

/-- A row's clamped Euclidean norm. -/
def nrm (v : Fin 256 → EReal) : EReal := max (Ideal.sqrt (dotp v v)) eps

/-- The cosine similarity of two rows, with clamped norms. -/
def sim (a v : Fin 256 → EReal) : EReal := Ideal.div (dotp a v) (nrm a * nrm v)

/-- One row's loss: minus the log of the positive's weight over the nine negatives' total weight. -/
def rowLoss (a : Fin 256 → EReal) (x : Fin 10 → Fin 256 → EReal) : EReal :=
  -Ideal.log (Ideal.div (Ideal.exp (sim a (x 0))) (∑ k : Fin 9, Ideal.exp (sim a (x k.succ))))

/-- The number of rows as the programs write it: the f32 word of 50000. -/
def count : EReal := Ideal.ofBits .f32 0x47435000#32

/-- The mean of the rows' losses. -/
def meanLoss (A : Fin 50000 → Fin 256 → EReal) (X : Fin 50000 → Fin 10 → Fin 256 → EReal) : EReal :=
  Ideal.div (∑ r, rowLoss (A r) (X r)) count

/-! ## The rows, read off the arguments -/

/-- The table of 200000 rows and the 50000 tuples of ten indices. -/
abbrev Table := (⟨2, ![200000, 256]⟩ : Shape).Idx → EReal
abbrev Tuples := (⟨2, ![50000, 10]⟩ : Shape).Idx → BitVec 32

/-- A negative index counts from the table's end. -/
def wrap (w : BitVec 32) : BitVec 32 := Scalar.select (IntOp.cmpi .slt w 0#32) (IntOp.addi w 200000#32) w

/-- The table row an index word picks: the word read signed, clamped into the table. -/
def rowOf (w : BitVec 32) : Fin 200000 := ⟨min w.toInt.toNat (200000 - 1), by omega⟩

/-- Row `r`'s anchor: table row `r`. -/
def anchor (f : Table) (r : Fin 50000) : Fin 256 → EReal :=
  fun d => f (ix2 ⟨r.val, by have := r.isLt; omega⟩ d)

/-- Row `r`'s `k`-th picked row. -/
def picked (f : Table) (t : Tuples) (r : Fin 50000) (k : Fin 10) : Fin 256 → EReal :=
  fun d => f (ix2 (rowOf (wrap (t (ix2 r k)))) d)

/-- What both programs return. -/
def result (f : Table) (t : Tuples) : EReal := meanLoss (anchor f) (picked f t)

/-! ## The three laws -/

/-- A quotient by the word of one is the dividend, at every extended real. -/
theorem div_one_word (x : EReal) : Ideal.div x (Ideal.ofBits .f32 0x3F800000#32) = x := by
  rw [Ideal.ofBits_one_f32, ← EReal.coe_one, Ideal.div_coe one_ne_zero, div_one, EReal.coe_one, mul_one]

/-- The word of zero minus `x` is `−x`, at every extended real. -/
theorem zero_word_sub (x : EReal) : Ideal.ofBits .f32 0x00000000#32 - x = -x := by
  rw [Ideal.ofBits_zero_f32, zero_sub]

/-- The word of zero plus `x` is `x`. -/
theorem zero_word_add (x : EReal) : Ideal.ofBits .f32 0x00000000#32 + x = x := by
  rw [Ideal.ofBits_zero_f32, zero_add]

/-- Row `j` of tile `t`. -/
def tileRow (t : Fin 125) (j : Fin 400) : Fin 50000 :=
  ⟨400 * t.val + j.val, by have := t.isLt; have := j.isLt; omega⟩

/-- A sum over the 50000 rows is the sum over the 125 tiles of each tile's sum over its 400 rows. -/
theorem sum_tiles (g : Fin 50000 → EReal) : ∑ r : Fin 50000, g r = ∑ t : Fin 125, ∑ j : Fin 400, g (tileRow t j) := by
  have hmn : 125 * 400 = 50000 := by norm_num
  have e : ∑ r : Fin 50000, g r
      = ∑ p : Fin 125 × Fin 400, g ((finProdFinEquiv.trans (finCongr hmn)) p) :=
    (Equiv.sum_comp (finProdFinEquiv.trans (finCongr hmn)) g).symm
  refine e.trans ?_
  rw [Fintype.sum_prod_type]
  refine Finset.sum_congr rfl fun t _ => Finset.sum_congr rfl fun j _ => congrArg g (Fin.ext ?_)
  show j.val + 400 * t.val = 400 * t.val + j.val
  omega

/-- The running total after tile `n`, as the kernel keeps it: from zero, one tile's sum added at a time. -/
def running (T : ℕ → EReal) : ℕ → EReal
  | 0 => Ideal.ofBits .f32 0x00000000#32 + T 0
  | n + 1 => running T n + T (n + 1)

/-- The running total is the sum of the tiles so far. -/
theorem running_eq (T : ℕ → EReal) (n : ℕ) : running T n = ∑ t ∈ Finset.range (n + 1), T t := by
  induction n with
  | zero => rw [running, zero_word_add, Finset.sum_range_one]
  | succ n ih => rw [running, ih, Finset.sum_range_succ T (n + 1)]

/-- One tile's sum of row losses, as a function of the tile's number (zero past the last tile). -/
def tileLoss (A : Fin 50000 → Fin 256 → EReal) (X : Fin 50000 → Fin 10 → Fin 256 → EReal) (n : ℕ) : EReal :=
  if h : n < 125 then ∑ j : Fin 400, rowLoss (A (tileRow ⟨n, h⟩ j)) (X (tileRow ⟨n, h⟩ j)) else 0

/-- The running total after the last tile, over the row count, is the mean loss. -/
theorem running_last (A : Fin 50000 → Fin 256 → EReal) (X : Fin 50000 → Fin 10 → Fin 256 → EReal) :
    Ideal.div (running (tileLoss A X) 124) count = meanLoss A X := by
  unfold meanLoss
  rw [running_eq, sum_tiles, Finset.sum_range (fun n => tileLoss A X n)]
  refine congrArg (Ideal.div · count) (Finset.sum_congr rfl fun t _ => ?_)
  unfold tileLoss
  rw [dif_pos t.isLt]

end Cert.Loss

end
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.LibMidAxis.lean ====
/-
  Three facts about an a × k × b array and its middle axis, for any sizes. The sum over the middle axis, read at
  (p, q), is the sum over j of the entries (p, j, q). An a × b array cast to a × 1 × b reads, at (p, u, q), its entry
  (p, q): the two indices have the same row-major position. An a × 1 × b array broadcast to a × k × b reads, at
  (p, j, q), its entry (p, 0, q). Together: a statistic taken along the middle axis, kept as a middle axis of length
  one and spread back along it, is that statistic at every j. Also here: the f32 word of one denotes the real one,
  and the logistic function written out as 1 / (1 + e^(-z)) over that word is the logistic function at every
  extended real, the infinities included.
-/
import Idealize.ShloMosaic.PureOps.Ideal.Laws
import Idealize.ShloMosaic.Lib.ValueIdx
import Idealize.ShloMosaic.Lib.Pipeline.Value

namespace Cert.LibMidAxis

open Idealize.ShloMosaic Idealize.ShloMosaic.ValueIdx

variable {α : Type}

/-- An `[a, b]` array cast to `[a, 1, b]` reads, at `(p, u, q)`, the operand at `(p, q)`, whatever the unit
    coordinate `u`: both indices sit at row-major position `p * b + q`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array broadcast to `[a, k, b]` reads, at `(p, j, q)`, the operand at `(p, 0, q)`. -/
theorem broadcastTo_a1b_akb_apply {a k b : ℕ} (v : (⟨3, ![a, 1, b]⟩ : Shape).Idx → α)
    (h : (⟨3, ![a, 1, b]⟩ : Shape).Broadcasts ⟨3, ![a, k, b]⟩) (p : Fin a) (j : Fin k) (q : Fin b) :
    broadcastTo ⟨3, ![a, k, b]⟩ v h (ix3 p j q) = v (ix3 p (0 : Fin 1) q) := by
  refine broadcastTo_apply v h (ix3 p j q) (ix3 p (0 : Fin 1) q) fun ax => ?_
  match ax with
  | ⟨0, _⟩ =>
    show p.val = if a = 1 then 0 else p.val
    split
    · have := p.isLt; omega
    · rfl
  | ⟨1, _⟩ =>
    show 0 = if (1 : ℕ) = 1 then 0 else j.val
    rw [if_pos rfl]
  | ⟨2, _⟩ =>
    show q.val = if b = 1 then 0 else q.val
    split
    · have := q.isLt; omega
    · rfl

/-- The sum over the middle axis of an `[a, k, b]` array of extended reals, read at `(p, q)`: the sum over `j` of the
    entries `(p, j, q)`. -/
theorem sum_mid_apply {a k b : ℕ} {φ : FTy} (src : FVec Ideal ⟨3, ![a, k, b]⟩ φ) (acc : BitVec φ.bits)
    (h : (⟨3, ![a, k, b]⟩ : Shape).Reduces [1] ⟨2, ![a, b]⟩) (hφ : FKind.Formats φ) (hacc : acc = FKind.add.neutral φ hφ)
    (p : Fin a) (q : Fin b) :
    multiReduction .add [1] ⟨2, ![a, b]⟩ src acc h hφ hacc (ix2 p q) = ∑ j : Fin k, src (ix3 p j q) := by
  refine (Ideal.multiReduction_add_single src acc h hφ hacc (ix2 p q)).trans ?_
  refine Finset.sum_congr rfl fun j _ => congrArg src ?_
  funext ax
  apply Fin.ext
  match ax with
  | ⟨0, _⟩ => rfl
  | ⟨1, _⟩ => rfl
  | ⟨2, _⟩ => rfl

/-- The f32 word `0x3F800000` denotes the real number one. -/
theorem one_word : Ideal.ofBits .f32 0x3F800000#32 = 1 := by
  simp [Ideal.ofBits, Ideal.ieee, -EReal.coe_mul]; norm_num

/-- The logistic function written out, `1 / (1 + e^(-z))` with both ones the f32 word of one, is the logistic function
    at every extended real: at `⊥` both are `0` and at `⊤` both are `1`, since the two sides are one expression. -/
theorem logistic_written_out (z : EReal) :
    Ideal.div (Ideal.ofBits .f32 0x3F800000#32) (Ideal.ofBits .f32 0x3F800000#32 + Ideal.exp (-z)) = Ideal.logistic z := by
  rw [one_word]; rfl

end Cert.LibMidAxis
-- ==== Proof.Payload.lean ====
/-
  The kernel body's arithmetic, read at coordinates on the extended reals.

  With `anc` the tile's 400 anchor rows, `pos` its 400 positive rows and `neg` its 400 × 9 negative rows:
  the positive weights are exp (sim anc_j pos_j), the negative weights exp (sim anc_j neg_{j,k}) — a lane sum is a sum over
  the 256 lanes, a clamped norm is the maximum of a root and ε, a norm kept as a column and spread over nine columns is
  that norm at every column, an anchor row given a middle axis of length one and spread over nine rows is that row —
  and the cell's new contents are its old contents plus the sum over the tile's rows of 0 − log (weight / total weight),
  which is the sum of the rows' losses.
-/
import proofs.«124811_j34359738990_1_alg».proof.Proof.Gen.KernelIdeal.Skeleton
import proofs.«124811_j34359738990_1_alg».proof.Proof.Spec
import proofs.«124811_j34359738990_1_alg».proof.Proof.LibKeepdims
import proofs.«124811_j34359738990_1_alg».proof.Proof.LibMidAxis
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Cert.Loss
open Idealize.ShloMosaic Idealize.ShloMosaic.ValueIdx

/-! ## Layout and lane sums at coordinates -/

/-- An `[a, 1]` column cast to a length-`a` vector reads, at `p`, the column at row `p`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- The sum along the rows of an `[a, b]` array, at row `p`: the sum over the row's `b` entries. -/
theorem lane_sum2 {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => congrArg src ?_
  funext ax
  apply Fin.ext
  match ax with
  | ⟨0, _⟩ => rfl
  | ⟨1, _⟩ => rfl

/-- The sum along the last axis of an `[a, k, b]` array, at `(p, q)`: the sum over the `b` entries `(p, q, ·)`. -/
theorem lane_sum3 {a k b : ℕ} (src : FVec Ideal ⟨3, ![a, k, b]⟩ .f32) (acc : BitVec 32)
    (h : (⟨3, ![a, k, b]⟩ : Shape).Reduces [2] ⟨2, ![a, k]⟩) (hφ : FKind.Formats .f32)
    (hacc : acc = FKind.add.neutral .f32 hφ) (p : Fin a) (q : Fin k) :
    multiReduction .add [2] ⟨2, ![a, k]⟩ src acc h hφ hacc (ix2 p q) = ∑ d : Fin b, src (ix3 p q d) := by
  refine (Ideal.multiReduction_add_single src acc h hφ hacc (ix2 p q)).trans ?_
  refine Finset.sum_congr rfl fun d _ => congrArg src ?_
  funext ax
  apply Fin.ext
  match ax with
  | ⟨0, _⟩ => rfl
  | ⟨1, _⟩ => rfl
  | ⟨2, _⟩ => rfl

/-! ## The payloads -/

/-- The anchor block as loaded. -/
theorem pay4_eq (v7 : FVec Ideal S400x256 .f32) : k0_pay4 (F := Ideal) v7 = v7 := shapeCast_self _ _

/-- The anchor block with a middle axis of length one: entry `(j, ·, d)` is the anchor's `(j, d)`. -/
theorem pay5_apply (v7 : FVec Ideal S400x256 .f32) (j : Fin 400) (u : Fin 1) (d : Fin 256) :
    k0_pay5 (F := Ideal) v7 (ix3 j u d) = v7 (ix2 j d) := by
  unfold k0_pay5
  rw [pay4_eq]
  exact Cert.LibMidAxis.shapeCast_ab_a1b_apply _ _ j u d

/-- The anchors' clamped norms, kept as a column. -/
theorem pay6_apply (v7 : FVec Ideal S400x256 .f32) (j : Fin 400) (u : Fin 1) :
    k0_pay6 (F := Ideal) v7 (ix2 j u) = nrm (fun d => v7 (ix2 j d)) := by
  unfold k0_pay6
  rw [pay4_eq]
  refine (Cert.LibKeepdims.shapeCast_a_a1_apply _ _ j u).trans ?_
  refine congrArg (fun s => max (Ideal.sqrt s) eps) ?_
  exact lane_sum2 _ _ _ _ _ j

/-- The positive weights: `exp (sim anc_j pos_j)`. -/
theorem pay7_apply (v3 : FVec Ideal S400x1x256 .f32) (v7 : FVec Ideal S400x256 .f32) (j : Fin 400) :
    k0_pay7 (F := Ideal) v3 v7 (ix1 j) = Ideal.exp (sim (fun d => v7 (ix2 j d)) (fun d => v3 (ix3 j (0 : Fin 1) d))) := by
  unfold k0_pay7
  simp only [shapeCast_self]
  refine (shapeCast_a1_a_apply _ _ j).trans ?_
  refine congrArg Ideal.exp ?_
  refine congr (congrArg Ideal.div ?_) ?_
  · refine (lane_sum3 _ _ _ _ _ j (0 : Fin 1)).trans ?_
    refine Finset.sum_congr rfl fun d _ => ?_
    exact congrArg (· * v3 (ix3 j (0 : Fin 1) d)) (pay5_apply v7 j 0 d)
  · refine congr (congrArg HMul.hMul (pay6_apply v7 j 0)) ?_
    refine congrArg (fun s => max (Ideal.sqrt s) eps) ?_
    exact lane_sum3 _ _ _ _ _ j (0 : Fin 1)

/-- The negative weights: `exp (sim anc_j neg_{j,k})`. -/
theorem pay8_apply (v5 : FVec Ideal S400x9x256 .f32) (v7 : FVec Ideal S400x256 .f32) (j : Fin 400) (k : Fin 9) :
    k0_pay8 (F := Ideal) v5 v7 (ix2 j k) = Ideal.exp (sim (fun d => v7 (ix2 j d)) (fun d => v5 (ix3 j k d))) := by
  unfold k0_pay8
  simp only [shapeCast_self]
  refine congrArg Ideal.exp ?_
  refine congr (congrArg Ideal.div ?_) ?_
  · refine (lane_sum3 _ _ _ _ _ j k).trans ?_
    refine Finset.sum_congr rfl fun d _ => ?_
    refine congrArg (· * v5 (ix3 j k d)) ?_
    exact (Cert.LibMidAxis.broadcastTo_a1b_akb_apply _ _ j k d).trans (pay5_apply v7 j 0 d)
  · refine congr (congrArg HMul.hMul ?_) ?_
    · exact (Cert.LibKeepdims.broadcastTo_a1_ab_apply _ _ j k).trans (pay6_apply v7 j 0)
    · refine congrArg (fun s => max (Ideal.sqrt s) eps) ?_
      exact lane_sum3 _ _ _ _ _ j k

/-- The cell's new contents: the old plus the sum over the tile's rows of `0 − log (weight / total weight)`. -/
theorem pay1_apply (v26 : FVec Ideal S400 .f32) (v38 : FVec Ideal S400x9 .f32) (acc : FVec Ideal S1x1 .f32) (y : S1x1.Idx) :
    k0_pay1 (F := Ideal) v26 v38 acc y
      = acc y + ∑ q : Fin 400, (Ideal.ofBits .f32 0x00000000#32
          - Ideal.log (Ideal.div (v26 (ix1 q)) (∑ k : Fin 9, v38 (ix2 q k)))) := by
  unfold k0_pay1
  simp only [shapeCast_self]
  refine congrArg (acc y + ·) ?_
  unfold extractAt
  refine (shapeCast_apply _ _ _ (ix1 (0 : Fin 1)) ?_).trans ?_
  · rw [Shape.rowMajor_val_one, Shape.rowMajor_val_two]; rfl
  refine (lane_sum2 _ _ _ _ _ (0 : Fin 1)).trans ?_
  refine Finset.sum_congr rfl fun q _ => ?_
  refine (shapeCast_a_1a_apply _ _ (0 : Fin 1) q).trans ?_
  refine congrArg (fun s => Ideal.ofBits .f32 0x00000000#32 - Ideal.log (Ideal.div (v26 (ix1 q)) s)) ?_
  exact lane_sum2 _ _ _ _ _ q

/-- The output block: the cell over the row count. -/
theorem pay2_apply (v : FVec Ideal S1x1 .f32) (y : S1x1.Idx) : k0_pay2 (F := Ideal) v y = Ideal.div (v y) count := rfl

/-- The reset block is zero. -/
theorem pay3_apply (y : S1x1.Idx) : k0_pay3 (F := Ideal) y = Ideal.ofBits .f32 0x00000000#32 := by
  unfold k0_pay3
  simp only [shapeCast_self]
  rfl

/-! ## One tile -/

/-- The ten picked rows of the tile's row `q`: the positive, then the nine negatives. -/
def pickedRows (x0 : FVec Ideal S400x1x256 .f32) (x1 : FVec Ideal S400x9x256 .f32) (q : Fin 400) : Fin 10 → Fin 256 → EReal :=
  Fin.cons (fun d => x0 (ix3 q (0 : Fin 1) d)) (fun k d => x1 (ix3 q k d))

/-- One grid point adds to the cell the sum of its 400 rows' losses. -/
theorem tile_apply (x0 : FVec Ideal S400x1x256 .f32) (x1 : FVec Ideal S400x9x256 .f32) (x2 : FVec Ideal S400x256 .f32)
    (acc : FVec Ideal S1x1 .f32) (y : S1x1.Idx) :
    k0_pay1 (F := Ideal) (k0_pay7 (F := Ideal) x0 x2) (k0_pay8 (F := Ideal) x1 x2) acc y
      = acc y + ∑ q : Fin 400, rowLoss (fun d => x2 (ix2 q d)) (pickedRows x0 x1 q) := by
  rw [pay1_apply]
  refine congrArg (acc y + ·) (Finset.sum_congr rfl fun q _ => ?_)
  rw [pay7_apply, zero_word_sub]
  unfold rowLoss pickedRows
  simp only [Fin.cons_zero, Fin.cons_succ, pay8_apply]

end Cert.KernelIdeal.Payload

end
-- ==== Proof.Accum.lean ====
/-
  The running total over the grid.

  After grid point `n` the scratch cell holds zero plus the sums of tiles 0..n, added in tile order (`Cert.Loss.running`):
  the first point resets the cell and adds tile 0, every later point adds its tile to what the point before left. At
  the last point the output block is that total over the row count.
-/
import proofs.«124811_j34359738990_1_alg».proof.Proof.Gen.KernelIdeal.Frame
import proofs.«124811_j34359738990_1_alg».proof.Proof.Pieces
import proofs.«124811_j34359738990_1_alg».proof.Proof.Payload
import proofs.«124811_j34359738990_1_alg».proof.Proof.Spec

noncomputable section

open scoped BigOperators

open Idealize.ShloMosaic Idealize.ShloMosaic.TcCoe Idealize.SL.Sem
open Idealize.ShloMosaic.Pipeline (Dat)

namespace Cert.KernelIdeal.Accum

open Cert.KernelIdeal Cert.KernelIdeal.Gen Cert.Loss
open Idealize.ShloMosaic.ValueIdx

variable (m : (ℓ : Loc nD τ sig) → Buf (Elt Ideal) ℓ)

/-- The three input blocks at a grid point, at their literal shapes. -/
abbrev posBlk (c : Dev nD) (t : Fin cfg0.N) : FVec Ideal S400x1x256 .f32 := iblk m c 0 t
abbrev negBlk (c : Dev nD) (t : Fin cfg0.N) : FVec Ideal S400x9x256 .f32 := iblk m c 1 t
abbrev ancBlk (c : Dev nD) (t : Fin cfg0.N) : FVec Ideal S400x256 .f32 := iblk m c 2 t

/-- The sum of row losses of the tile staged at grid point `t`. -/
def tileAt (c : Dev nD) (t : Fin cfg0.N) : EReal :=
  ∑ q : Fin 400, rowLoss (fun d => ancBlk m c t (ix2 q d)) (Payload.pickedRows (posBlk m c t) (negBlk m c t) q)

/-- The first point: the cell ends at zero plus the tile's sum. -/
theorem cell_first (c : Dev nD) (t : Fin cfg0.N) (h0 : t.val % 125 = 0) (h1 : ¬t.val % 125 = 124) (y : S1x1.Idx) :
    (outsAt0 m c t.val t.isLt).2 y = Ideal.ofBits .f32 0x00000000#32 + tileAt m c t := by
  rw [outsAt0_A m c t h0 h1]
  dsimp only
  refine (congrFun (Pieces.sout_A (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (iblk m c 0 t) (iblk m c 1 t) (iblk m c 2 t)) y).trans ?_
  refine (Payload.tile_apply (posBlk m c t) (negBlk m c t) (ancBlk m c t) (k0_pay3 (F := Ideal)) y).trans ?_
  rw [Payload.pay3_apply]
  rfl

/-- A middle point: the cell ends at what the point before left plus the tile's sum. -/
theorem cell_middle (c : Dev nD) (t : Fin cfg0.N) (h0 : ¬t.val % 125 = 0) (h1 : ¬t.val % 125 = 124) (y : S1x1.Idx) :
    (outsAt0 m c t.val t.isLt).2 y
      = (outsAt0 m c (t.val - 1) (Nat.lt_of_le_of_lt (Nat.sub_le _ _) t.isLt)).2 y + tileAt m c t := by
  rw [outsAt0_B m c t h0 h1]
  dsimp only
  refine (congrFun (Pieces.sout_B (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk m c 0 t) (iblk m c 1 t) (iblk m c 2 t)
    (outsAt0 m c (t.val - 1) (Nat.lt_of_le_of_lt (Nat.sub_le _ _) t.isLt)).2) y).trans ?_
  exact Payload.tile_apply (posBlk m c t) (negBlk m c t) (ancBlk m c t)
    (outsAt0 m c (t.val - 1) (Nat.lt_of_le_of_lt (Nat.sub_le _ _) t.isLt)).2 y

/-- The last point: the cell likewise, -/
theorem cell_last (c : Dev nD) (t : Fin cfg0.N) (h0 : ¬t.val % 125 = 0) (h1 : t.val % 125 = 124) (y : S1x1.Idx) :
    (outsAt0 m c t.val t.isLt).2 y
      = (outsAt0 m c (t.val - 1) (Nat.lt_of_le_of_lt (Nat.sub_le _ _) t.isLt)).2 y + tileAt m c t := by
  rw [outsAt0_C m c t h0 h1]
  dsimp only
  refine (congrFun (Pieces.sout_C (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2) y).trans ?_
  exact Payload.tile_apply (posBlk m c t) (negBlk m c t) (ancBlk m c t)
    (outsAt0 m c (t.val - 1) (Nat.lt_of_le_of_lt (Nat.sub_le _ _) t.isLt)).2 y

/-- and the output block at the cell's new contents over the row count. -/
theorem out_at_last (c : Dev nD) (t : Fin cfg0.N) (h0 : ¬t.val % 125 = 0) (h1 : t.val % 125 = 124) (y : S1x1.Idx) :
    (outsAt0 m c t.val t.isLt).1 y
      = Ideal.div ((outsAt0 m c (t.val - 1) (Nat.lt_of_le_of_lt (Nat.sub_le _ _) t.isLt)).2 y + tileAt m c t) count := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2) y).trans ?_
  rw [Payload.pay2_apply]
  refine congrArg (Ideal.div · count) ?_
  exact Payload.tile_apply (posBlk m c t) (negBlk m c t) (ancBlk m c t)
    (outsAt0 m c (t.val - 1) (Nat.lt_of_le_of_lt (Nat.sub_le _ _) t.isLt)).2 y

end Cert.KernelIdeal.Accum

end
-- ==== Proof.LibRowGather3.lean ====
/-
  A gather of whole rows of an [N, C] table at an [M, K] grid of start indices (held as words in an [M, K, 1] array),
  read at an index: the result's entry (e, k, h) is the table's entry (row, h), where row is the start index at (e, k)
  read as a signed integer and clamped into [0, N - 1]. This is what `x[idx]` lowers to for a rank-2 integer array
  `idx` and a rank-2 table `x`: the collapsed table axis 0 takes the clamped start index, the kept table axis 1 takes
  the result's last coordinate.
-/
import Idealize.ShloMosaic.PureOps.Ideal
import Idealize.ShloMosaic.Lib.ValueIdx

noncomputable section

namespace Cert.LibRowGather3

open Idealize.ShloMosaic Idealize.ShloMosaic.ValueIdx

/-- The dimension numbers of that gather for a table [N, C], start indices [M, K, 1] and a result [M, K, C]. -/
abbrev rowGather3 (N C M K : Nat)
    (wf : GatherDims.WF ⟨2, ![N, C]⟩ ⟨3, ![M, K, 1]⟩ ⟨3, ![M, K, C]⟩ [2] [0] [] [0] [] 2 ![1, C]) :
    GatherDims ⟨2, ![N, C]⟩ ⟨3, ![M, K, 1]⟩ ⟨3, ![M, K, C]⟩ where
  offsetDims := [2]
  collapsedSliceDims := [0]
  operandBatchingDims := []
  startIndicesBatchingDims := []
  startIndexMap := [0]
  indexVectorDim := 2
  sliceSizes := ![1, C]
  wf := wf

/-- The gather with those dimension numbers, read at (e, k, h). -/
theorem rowGather3_apply {α : Type} {N C M K w : Nat} (hN : 0 < N)
    (wf : GatherDims.WF ⟨2, ![N, C]⟩ ⟨3, ![M, K, 1]⟩ ⟨3, ![M, K, C]⟩ [2] [0] [] [0] [] 2 ![1, C])
    (x : (⟨2, ![N, C]⟩ : Shape).Idx → α) (idx : IVec ⟨3, ![M, K, 1]⟩ w) (e : Fin M) (k : Fin K) (h : Fin C) :
    Host.gather (rowGather3 N C M K wf) x idx (ix3 e k h)
      = x (ix2 ⟨min (idx (ix3 e k (0 : Fin 1))).toInt.toNat (N - 1), by omega⟩ h) := by
  unfold Host.gather
  congr 1
  funext a
  refine Fin.ext ?_
  match a with
  | ⟨0, _⟩ =>
    show (rowGather3 N C M K wf).start (ix3 e k h) idx 0 + (rowGather3 N C M K wf).batchCoord (ix3 e k h) 0
      + (rowGather3 N C M K wf).offCoord (ix3 e k h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather3 N C M K wf).startIndexMap from List.mem_singleton.mpr rfl)]
    have hsi : (rowGather3 N C M K wf).siIdx (ix3 e k h) ⟨List.idxOf (0 : Fin 2) (rowGather3 N C M K wf).startIndexMap,
        List.idxOf_lt_length_iff.2 (List.mem_singleton.mpr rfl)⟩ = ix3 e k (0 : Fin 1) := by
      funext b; refine Fin.ext ?_
      match b with
      | ⟨0, _⟩ => rfl
      | ⟨1, _⟩ => rfl
      | ⟨2, _⟩ => rfl
    rw [hsi]
    rfl
  | ⟨1, _⟩ =>
    show (rowGather3 N C M K wf).start (ix3 e k h) idx 1 + (rowGather3 N C M K wf).batchCoord (ix3 e k h) 1
      + (rowGather3 N C M K wf).offCoord (ix3 e k h) 1 = h.val
    have h1 : (1 : Fin 2) ∉ (rowGather3 N C M K wf).startIndexMap := fun hm =>
      absurd (congrArg Fin.val (List.mem_singleton.mp hm)) Nat.one_ne_zero
    have h2 : (1 : Fin 2) ∈ (rowGather3 N C M K wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- The same for any record whose lists are these: a program's printed record is an instance by seven `rfl`s. -/
theorem gather_row3_apply {α : Type} {N C M K w : Nat} (hN : 0 < N)
    (d : GatherDims ⟨2, ![N, C]⟩ ⟨3, ![M, K, 1]⟩ ⟨3, ![M, K, C]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, C])
    (x : (⟨2, ![N, C]⟩ : Shape).Idx → α) (idx : IVec ⟨3, ![M, K, 1]⟩ w) (e : Fin M) (k : Fin K) (h : Fin C) :
    Host.gather d x idx (ix3 e k h)
      = x (ix2 ⟨min (idx (ix3 e k (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather3_apply hN wf x idx e k h

end Cert.LibRowGather3

end
-- ==== Proof.Blocks.lean ====
/-
  The three input blocks of the loss kernel, read at coordinates.

  Before the kernel region the program prepares three arrays from the table (200000 rows of 256 entries) and the tuples
  (50000 rows of ten index words): the positives' rows (the table row picked by each tuple's word 0), the negatives'
  rows (the table rows picked by words 1 to 9), and the anchors' rows (the table's first 50000 rows). A picked row is the
  word with the table's height added when it is negative, read signed and clamped into the table. The region walks 125
  grid points; at point t each window stages rows 400 t to 400 t + 399 of its array.

  So entry (j, k, d) of a block at point t is entry d of a row of the specification: the positive, the (k+1)-th
  negative, or the anchor of row 400 t + j.
-/
import proofs.«124811_j34359738990_1_alg».proof.Proof.Gen.KernelIdeal.Frame
import proofs.«124811_j34359738990_1_alg».proof.Proof.Spec
import proofs.«124811_j34359738990_1_alg».proof.Proof.LibRowGather3
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

abbrev feat (c : Dev nD) : Cert.Loss.Table := m ((c.tc : Thread nD τ).loc main_arg0)
abbrev tups (c : Dev nD) : Cert.Loss.Tuples := m ((c.tc : Thread nD τ).loc main_arg1)

/-! ## Which block a point stages -/

/-- The three input windows' block numbers at grid point `t`: block `t` along the rows, block 0 along every other axis. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = t.val ∧ win0_2.index t (1 : Fin 2) = 0) :=
  (by decide +kernel : ∀ t : Fin grid0.N, _)

/-! ## The wrapped index words, and the three staged arrays as functions of the table and the tuples -/

section Arrays

variable (f : Cert.Loss.Table) (tp : Cert.Loss.Tuples)

/-- Column 0 of the tuples. -/
abbrev col0 : IVec S50000x1 32 := extractStridedSlice S50000x1 ![0, 0] tp slices_S50000x10_S50000x1_0_0
/-- Columns 1 to 9 of the tuples. -/
abbrev cols19 : IVec S50000x9 32 := extractStridedSlice S50000x9 ![0, 1] tp slices_S50000x10_S50000x9_0_1

/-- Column 0 with each negative word moved up by the table's height. -/
abbrev wrapped0 : IVec S50000x1 32 :=
  select (cmpi CmpIPredicate.slt (col0 tp) (broadcastInDim S50000x1 ![] bcast_S_S50000x1 (constantI S_ 32 0#32)))
    (addi (col0 tp) (broadcastInDim S50000x1 ![] bcast_S_S50000x1 (constantI S_ 32 200000#32))) (col0 tp)
/-- Columns 1 to 9 likewise. -/
abbrev wrapped19 : IVec S50000x9 32 :=
  select (cmpi CmpIPredicate.slt (cols19 tp) (broadcastInDim S50000x9 ![] bcast_S_S50000x9 (constantI S_ 32 0#32)))
    (addi (cols19 tp) (broadcastInDim S50000x9 ![] bcast_S_S50000x9 (constantI S_ 32 200000#32))) (cols19 tp)

/-- The positives' rows: the table gathered at the wrapped column 0. -/
abbrev posArr : Vec Ideal S50000x1x256 .f32 :=
  Host.gather gather_S200000x256_S50000x1x1_S50000x1x256_2_0_n_n_0_2_1256 f
    (broadcastInDim S50000x1x1 ![0, 1] bcast_S50000x1_S50000x1x1_0_1 (wrapped0 tp))
/-- The negatives' rows: the table gathered at the wrapped columns 1 to 9. -/
abbrev negArr : Vec Ideal S50000x9x256 .f32 :=
  Host.gather gather_S200000x256_S50000x9x1_S50000x9x256_2_0_n_n_0_2_1256 f
    (broadcastInDim S50000x9x1 ![0, 1] bcast_S50000x9_S50000x9x1_0_1 (wrapped19 tp))
/-- The anchors' rows: the table's first 50000 rows. -/
abbrev ancArr : Vec Ideal S50000x256 .f32 :=
  extractStridedSlice S50000x256 ![0, 0] f slices_S200000x256_S50000x256_0_0

/-- The wrapped column 0 at row `r` is the wrap of the tuple's word 0. -/
theorem wrapped0_apply (r : Fin 50000) (k : Fin 1) :
    wrapped0 tp (ix2 r k) = Cert.Loss.wrap (tp (ix2 r (0 : Fin 10))) := by
  have hs : col0 tp (ix2 r k) = tp (ix2 r (0 : Fin 10)) :=
    extractStridedSlice_apply ![0, 0] tp slices_S50000x10_S50000x1_0_0 (ix2 r k) (ix2 r (0 : Fin 10)) (fun a => match a with
      | ⟨0, _⟩ => by show r.val = 0 + r.val; omega
      | ⟨1, _⟩ => by show 0 = 0 + k.val; have := k.isLt; omega)
  have hz : broadcastInDim S50000x1 ![] bcast_S_S50000x1 (constantI S_ 32 0#32) (ix2 r k) = 0#32 :=
    broadcastInDim_apply _ bcast_S_S50000x1 (constantI S_ 32 0#32) (ix2 r k) (fun a => a.elim0) (fun a => a.elim0)
  have hn : broadcastInDim S50000x1 ![] bcast_S_S50000x1 (constantI S_ 32 200000#32) (ix2 r k) = 200000#32 :=
    broadcastInDim_apply _ bcast_S_S50000x1 (constantI S_ 32 200000#32) (ix2 r k) (fun a => a.elim0) (fun a => a.elim0)
  show Scalar.select (IntOp.cmpi .slt (col0 tp (ix2 r k)) (broadcastInDim S50000x1 ![] bcast_S_S50000x1 (constantI S_ 32 0#32) (ix2 r k)))
      (IntOp.addi (col0 tp (ix2 r k)) (broadcastInDim S50000x1 ![] bcast_S_S50000x1 (constantI S_ 32 200000#32) (ix2 r k))) (col0 tp (ix2 r k)) = _
  rw [hs, hz, hn]
  rfl

/-- The wrapped columns 1 to 9 at row `r`, column `k`: the wrap of the tuple's word `k + 1`. -/
theorem wrapped19_apply (r : Fin 50000) (k : Fin 9) :
    wrapped19 tp (ix2 r k) = Cert.Loss.wrap (tp (ix2 r k.succ)) := by
  have hs : cols19 tp (ix2 r k) = tp (ix2 r k.succ) :=
    extractStridedSlice_apply ![0, 1] tp slices_S50000x10_S50000x9_0_1 (ix2 r k) (ix2 r k.succ) (fun a => match a with
      | ⟨0, _⟩ => by show r.val = 0 + r.val; omega
      | ⟨1, _⟩ => by show k.val + 1 = 1 + k.val; omega)
  have hz : broadcastInDim S50000x9 ![] bcast_S_S50000x9 (constantI S_ 32 0#32) (ix2 r k) = 0#32 :=
    broadcastInDim_apply _ bcast_S_S50000x9 (constantI S_ 32 0#32) (ix2 r k) (fun a => a.elim0) (fun a => a.elim0)
  have hn : broadcastInDim S50000x9 ![] bcast_S_S50000x9 (constantI S_ 32 200000#32) (ix2 r k) = 200000#32 :=
    broadcastInDim_apply _ bcast_S_S50000x9 (constantI S_ 32 200000#32) (ix2 r k) (fun a => a.elim0) (fun a => a.elim0)
  show Scalar.select (IntOp.cmpi .slt (cols19 tp (ix2 r k)) (broadcastInDim S50000x9 ![] bcast_S_S50000x9 (constantI S_ 32 0#32) (ix2 r k)))
      (IntOp.addi (cols19 tp (ix2 r k)) (broadcastInDim S50000x9 ![] bcast_S_S50000x9 (constantI S_ 32 200000#32) (ix2 r k))) (cols19 tp (ix2 r k)) = _
  rw [hs, hz, hn]
  rfl

/-- The positives' array at (r, 0, d) is the spec's picked row 0 of row `r`. -/
theorem posArr_apply (r : Fin 50000) (k : Fin 1) (d : Fin 256) :
    posArr f tp (ix3 r k d) = Cert.Loss.picked f tp r 0 d := by
  have hb : broadcastInDim S50000x1x1 ![0, 1] bcast_S50000x1_S50000x1x1_0_1 (wrapped0 tp) (ix3 r k (0 : Fin 1)) = wrapped0 tp (ix2 r k) :=
    broadcastInDim_apply _ bcast_S50000x1_S50000x1x1_0_1 (wrapped0 tp) (ix3 r k (0 : Fin 1)) (ix2 r k) (fun a => match a with
      | ⟨0, _⟩ => by show r.val = if (50000 : Nat) = 1 then 0 else r.val; rw [if_neg (by decide)]
      | ⟨1, _⟩ => by show k.val = if (1 : Nat) = 1 then 0 else k.val; rw [if_pos rfl]; have := k.isLt; omega)
  refine (Cert.LibRowGather3.gather_row3_apply (N := 200000) (C := 256) (M := 50000) (K := 1) (by decide)
    gather_S200000x256_S50000x1x1_S50000x1x256_2_0_n_n_0_2_1256 rfl rfl rfl rfl rfl rfl rfl f _ r k d).trans ?_
  show f (ix2 (Cert.Loss.rowOf (broadcastInDim S50000x1x1 ![0, 1] bcast_S50000x1_S50000x1x1_0_1 (wrapped0 tp) (ix3 r k (0 : Fin 1)))) d) = _
  rw [hb, wrapped0_apply]
  rfl

/-- The negatives' array at (r, k, d) is the spec's picked row `k + 1` of row `r`. -/
theorem negArr_apply (r : Fin 50000) (k : Fin 9) (d : Fin 256) :
    negArr f tp (ix3 r k d) = Cert.Loss.picked f tp r k.succ d := by
  have hb : broadcastInDim S50000x9x1 ![0, 1] bcast_S50000x9_S50000x9x1_0_1 (wrapped19 tp) (ix3 r k (0 : Fin 1)) = wrapped19 tp (ix2 r k) :=
    broadcastInDim_apply _ bcast_S50000x9_S50000x9x1_0_1 (wrapped19 tp) (ix3 r k (0 : Fin 1)) (ix2 r k) (fun a => match a with
      | ⟨0, _⟩ => by show r.val = if (50000 : Nat) = 1 then 0 else r.val; rw [if_neg (by decide)]
      | ⟨1, _⟩ => by show k.val = if (9 : Nat) = 1 then 0 else k.val; rw [if_neg (by decide)])
  refine (Cert.LibRowGather3.gather_row3_apply (N := 200000) (C := 256) (M := 50000) (K := 9) (by decide)
    gather_S200000x256_S50000x9x1_S50000x9x256_2_0_n_n_0_2_1256 rfl rfl rfl rfl rfl rfl rfl f _ r k d).trans ?_
  show f (ix2 (Cert.Loss.rowOf (broadcastInDim S50000x9x1 ![0, 1] bcast_S50000x9_S50000x9x1_0_1 (wrapped19 tp) (ix3 r k (0 : Fin 1)))) d) = _
  rw [hb, wrapped19_apply]
  rfl

/-- The anchors' array at (r, d) is the spec's anchor of row `r`. -/
theorem ancArr_apply (r : Fin 50000) (d : Fin 256) :
    ancArr f (ix2 r d) = Cert.Loss.anchor f r d :=
  extractStridedSlice_apply ![0, 0] f slices_S200000x256_S50000x256_0_0 (ix2 r d)
    (ix2 (⟨r.val, by have := r.isLt; omega⟩ : Fin 200000) d) (fun a => match a with
      | ⟨0, _⟩ => by show r.val = 0 + r.val; omega
      | ⟨1, _⟩ => by show d.val = 0 + d.val; omega)

end Arrays

/-! ## The arrays as the region finds them -/

/-- Window 0's array: the host lines before the region leave the positives' rows in it. -/
theorem V8_eq (c : Dev nD) : (V m c main_v8 : Vec Ideal S50000x1x256 .f32) = posArr (feat m c) (tups m c) := by
  show StableHlo.after hostOps0 (fun b => m (c, b)) (Proc.devRef .tc main_v8) = _
  after_results

/-- Window 1's array: the negatives' rows. -/
theorem V15_eq (c : Dev nD) : (V m c main_v15 : Vec Ideal S50000x9x256 .f32) = negArr (feat m c) (tups m c) := by
  show StableHlo.after hostOps0 (fun b => m (c, b)) (Proc.devRef .tc main_v15) = _
  after_results

/-- Window 2's array: the anchors' rows. -/
theorem V16_eq (c : Dev nD) : (V m c main_v16 : Vec Ideal S50000x256 .f32) = ancArr (feat m c) := by
  show StableHlo.after hostOps0 (fun b => m (c, b)) (Proc.devRef .tc main_v16) = _
  after_results

/-! ## A block's entry is its array's entry at row 400 t + j -/

theorem iblk0_read (c : Dev nD) (t : Fin cfg0.N) (j : Fin 400) (k : Fin 1) (d : Fin 256) (r : Fin 50000)
    (hr : r.val = 400 * t.val + j.val) :
    (iblk m c 0 t : Vec Ideal S400x1x256 .f32) (ix3 j k d) = (V m c main_v8 : Vec Ideal S50000x1x256 .f32) (ix3 r k d) := by
  have hi := (idx_facts t).1
  unfold iblk
  rw [View.read_apply]
  show V m c main_v8 _ = V m c main_v8 _
  congr 1
  funext a
  apply Fin.ext
  match a with
  | ⟨0, _⟩ => show win0_0.index t 0 * 400 + 1 * j.val = r.val; rw [hi.1, hr]; omega
  | ⟨1, _⟩ => show win0_0.index t 1 * 1 + 1 * k.val = k.val; rw [hi.2.1]; omega
  | ⟨2, _⟩ => show win0_0.index t 2 * 256 + 1 * d.val = d.val; rw [hi.2.2]; omega

theorem iblk1_read (c : Dev nD) (t : Fin cfg0.N) (j : Fin 400) (k : Fin 9) (d : Fin 256) (r : Fin 50000)
    (hr : r.val = 400 * t.val + j.val) :
    (iblk m c 1 t : Vec Ideal S400x9x256 .f32) (ix3 j k d) = (V m c main_v15 : Vec Ideal S50000x9x256 .f32) (ix3 r k d) := by
  have hi := (idx_facts t).2.1
  unfold iblk
  rw [View.read_apply]
  show V m c main_v15 _ = V m c main_v15 _
  congr 1
  funext a
  apply Fin.ext
  match a with
  | ⟨0, _⟩ => show win0_1.index t 0 * 400 + 1 * j.val = r.val; rw [hi.1, hr]; omega
  | ⟨1, _⟩ => show win0_1.index t 1 * 9 + 1 * k.val = k.val; rw [hi.2.1]; omega
  | ⟨2, _⟩ => show win0_1.index t 2 * 256 + 1 * d.val = d.val; rw [hi.2.2]; omega

theorem iblk2_read (c : Dev nD) (t : Fin cfg0.N) (j : Fin 400) (d : Fin 256) (r : Fin 50000)
    (hr : r.val = 400 * t.val + j.val) :
    (iblk m c 2 t : Vec Ideal S400x256 .f32) (ix2 j d) = (V m c main_v16 : Vec Ideal S50000x256 .f32) (ix2 r d) := by
  have hi := (idx_facts t).2.2
  unfold iblk
  rw [View.read_apply]
  show V m c main_v16 _ = V m c main_v16 _
  congr 1
  funext a
  apply Fin.ext
  match a with
  | ⟨0, _⟩ => show win0_2.index t 0 * 400 + 1 * j.val = r.val; rw [hi.1, hr]; omega
  | ⟨1, _⟩ => show win0_2.index t 1 * 256 + 1 * d.val = d.val; rw [hi.2]; omega

/-! ## The blocks at coordinates, as rows of the specification -/

/-- Window 0's block at point `t`: row `j` is the positive of row `400 t + j`. -/
theorem iblk0_apply (c : Dev nD) (t : Fin cfg0.N) (ht : t.val < 125) (j : Fin 400) (d : Fin 256) :
    (iblk m c 0 t : Vec Ideal S400x1x256 .f32) (ix3 j (0 : Fin 1) d)
      = Cert.Loss.picked (feat m c) (tups m c) (Cert.Loss.tileRow ⟨t.val, ht⟩ j) 0 d := by
  rw [iblk0_read m c t j 0 d (Cert.Loss.tileRow ⟨t.val, ht⟩ j) rfl, V8_eq]
  exact posArr_apply (feat m c) (tups m c) _ 0 d

/-- Window 1's block at point `t`: row `j`, column `k` is negative `k + 1` of row `400 t + j`. -/
theorem iblk1_apply (c : Dev nD) (t : Fin cfg0.N) (ht : t.val < 125) (j : Fin 400) (k : Fin 9) (d : Fin 256) :
    (iblk m c 1 t : Vec Ideal S400x9x256 .f32) (ix3 j k d)
      = Cert.Loss.picked (feat m c) (tups m c) (Cert.Loss.tileRow ⟨t.val, ht⟩ j) k.succ d := by
  rw [iblk1_read m c t j k d (Cert.Loss.tileRow ⟨t.val, ht⟩ j) rfl, V15_eq]
  exact negArr_apply (feat m c) (tups m c) _ k d

/-- Window 2's block at point `t`: row `j` is the anchor of row `400 t + j`. -/
theorem iblk2_apply (c : Dev nD) (t : Fin cfg0.N) (ht : t.val < 125) (j : Fin 400) (d : Fin 256) :
    (iblk m c 2 t : Vec Ideal S400x256 .f32) (ix2 j d)
      = Cert.Loss.anchor (feat m c) (Cert.Loss.tileRow ⟨t.val, ht⟩ j) d := by
  rw [iblk2_read m c t j d (Cert.Loss.tileRow ⟨t.val, ht⟩ j) rfl, V16_eq]
  exact ancArr_apply (feat m c) _ d

end Cert.KernelIdeal.Blocks

end
-- ==== Proof.Final.lean ====
/-
  The idealized kernel's result.

  The tile staged at grid point `t` is rows 400t .. 400t+399 of the specification (its anchor block is those rows of the
  table, its positive and negative blocks the rows picked by those tuples), so the scratch cell after point `n` is the
  specification's running total, the output block after the last point is the mean loss, the one write-back (at the
  last point; the 1×1 block is the whole 1×1 result array) leaves the array at the mean loss, and the reshape after the
  call hands it on as a scalar.
-/
import proofs.«124811_j34359738990_1_alg».proof.Proof.Gen.KernelIdeal.Frame
import proofs.«124811_j34359738990_1_alg».proof.Proof.Accum
import proofs.«124811_j34359738990_1_alg».proof.Proof.Blocks
import proofs.«124811_j34359738990_1_alg».proof.Proof.Spec
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Final

open Cert.KernelIdeal Cert.KernelIdeal.Gen Cert.Loss
open Cert.KernelIdeal.Blocks (feat tups)
open Idealize.ShloMosaic.ValueIdx

variable (m : (ℓ : Loc nD τ sig) → Buf (Elt Ideal) ℓ) (ρ : Dev nD → PrngReg)

/-- The specification's anchors and picked rows, read off this memory's arguments. -/
abbrev anchors (c : Dev nD) : Fin 50000 → Fin 256 → EReal := anchor (feat m c)
abbrev picks (c : Dev nD) : Fin 50000 → Fin 10 → Fin 256 → EReal := picked (feat m c) (tups m c)

/-- The mean loss of this memory's arguments. -/
def res (c : Dev nD) : EReal := result (feat m c) (tups m c)

/-- The tile staged at point `t` is the specification's tile `t`. -/
theorem tileAt_eq (c : Dev nD) (t : Fin cfg0.N) : Accum.tileAt m c t = tileLoss (anchors m c) (picks m c) t.val := by
  have ht : t.val < 125 := lt_of_lt_of_eq t.isLt (show cfg0.N = 125 from N_0)
  unfold Accum.tileAt tileLoss
  rw [dif_pos ht]
  refine Finset.sum_congr rfl fun q _ => ?_
  have ha : (fun d => Accum.ancBlk m c t (ix2 q d)) = anchor (feat m c) (tileRow ⟨t.val, ht⟩ q) :=
    funext fun d => Blocks.iblk2_apply m c t ht q d
  have hx : Payload.pickedRows (Accum.posBlk m c t) (Accum.negBlk m c t) q
      = picked (feat m c) (tups m c) (tileRow ⟨t.val, ht⟩ q) := by
    funext k
    refine Fin.cases ?_ (fun k' => ?_) k
    · funext d; exact Blocks.iblk0_apply m c t ht q d
    · funext d; exact Blocks.iblk1_apply m c t ht q k' d
  rw [ha, hx]

/-- The scratch cell after point `n` is the specification's running total. -/
theorem cell_eq (c : Dev nD) : ∀ (n : ℕ) (hn : n < cfg0.N) (y : S1x1.Idx),
    (outsAt0 m c n hn).2 y = running (tileLoss (anchors m c) (picks m c)) n
  | 0, hn, y => by
    have h := Accum.cell_first m c ⟨0, hn⟩ rfl (by show ¬(0 % 125 = 124); decide) y
    rw [tileAt_eq] at h
    exact h
  | n + 1, hn, y => by
    have hN : cfg0.N = 125 := N_0
    have h0 : ¬(⟨n + 1, hn⟩ : Fin cfg0.N).val % 125 = 0 := by dsimp only; omega
    have ih := cell_eq c n (Nat.lt_of_succ_lt hn) y
    have step : (outsAt0 m c (n + 1) hn).2 y
        = (outsAt0 m c n (Nat.lt_of_succ_lt hn)).2 y + Accum.tileAt m c ⟨n + 1, hn⟩ := by
      by_cases h1 : (⟨n + 1, hn⟩ : Fin cfg0.N).val % 125 = 124
      · exact Accum.cell_last m c ⟨n + 1, hn⟩ h0 h1 y
      · exact Accum.cell_middle m c ⟨n + 1, hn⟩ h0 h1 y
    rw [step, ih, tileAt_eq]
    rfl

/-- The output block after the last point is the mean loss. -/
theorem out_final (c : Dev nD) (t : Fin cfg0.N) (h1 : t.val % 125 = 124) (y : S1x1.Idx) :
    (outsAt0 m c t.val t.isLt).1 y = res m c := by
  have hN : cfg0.N = 125 := N_0
  have ht : t.val = 124 := by have := t.isLt; omega
  have h0 : ¬t.val % 125 = 0 := by omega
  rw [Accum.out_at_last m c t h0 h1 y, cell_eq m c (t.val - 1) _ y, tileAt_eq]
  have e : running (tileLoss (anchors m c) (picks m c)) (t.val - 1) + tileLoss (anchors m c) (picks m c) t.val
      = running (tileLoss (anchors m c) (picks m c)) 124 := by
    rw [ht]; rfl
  rw [e]
  exact running_last _ _

/-- The last grid point. -/
theorem last_lt : 124 < cfg0.N := by rw [show cfg0.N = 125 from N_0]; decide

/-- The result array's contents after the run. -/
abbrev resArr (c : Dev nD) : Buf (Elt Ideal) ((c : Thread nD τ).loc main_v17) := fun _ => res m c

/-- The one write-back, at the last point, writes the mean loss: the 1×1 block at index (0, 0) is the whole array. -/
theorem flushed_eq (c : Dev nD) (t : Fin cfg0.N) (hf : (cfg0.win 3).flush t = true) :
    (dats m 0 c).flushed 3 t = ((cfg0.win 3).blk t).view.read (Elt Ideal) (resArr m c) := by
  have h1 : t.val % 125 = 124 := (flush0_3 t).mp hf
  show (cfg0.win 3).cut (grid0.coords t) ((dats m 0 c).after 3 t) = _
  rw [after0_3]
  have hz' : (fun a => win0_3.index t a * main_v17.ty.shape.size a) = fun _ => 0 :=
    funext fun a => by fin_cases a <;> rfl
  refine Eq.trans ?_ (Memref.read_access_unit_zero (Elt Ideal) main_v17 hz' (fun a => by rw [congrFun hz' a]; simp) (resArr m c)).symm
  funext y
  exact out_final m c t h1 y

/-- So the result array ends at the mean loss. -/
theorem final_o (c : Dev nD) : (dats m 0 c).arrAt 3 cfg0.N = resArr m c :=
  (dats m 0 c).arrAt_eq_of_cover 3 (resArr m c) (flushed_eq m c) fun i =>
    ⟨⟨124, last_lt⟩, (flush0_3 _).mpr rfl, by
      show i ∈ ((View.whole main_v17).slice (win0_3.rect ⟨124, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index ⟨124, last_lt⟩ 0 * win0_3.size 0 ≤ (i 0 : Nat)
          ∧ (i 0 : Nat) < win0_3.index ⟨124, last_lt⟩ 0 * win0_3.size 0 + win0_3.xsize (grid0.coords ⟨124, last_lt⟩) 0
        rw [show win0_3.index ⟨124, last_lt⟩ 0 * win0_3.size 0 = 0 from by decide +kernel,
          show win0_3.xsize (grid0.coords ⟨124, last_lt⟩) 0 = 1 from by decide +kernel]
        omega
      | ⟨1, _⟩ =>
        show win0_3.index ⟨124, last_lt⟩ 1 * win0_3.size 1 ≤ (i 1 : Nat)
          ∧ (i 1 : Nat) < win0_3.index ⟨124, last_lt⟩ 1 * win0_3.size 1 + win0_3.xsize (grid0.coords ⟨124, last_lt⟩) 1
        rw [show win0_3.index ⟨124, last_lt⟩ 1 * win0_3.size 1 = 0 from by decide +kernel,
          show win0_3.xsize (grid0.coords ⟨124, last_lt⟩) 1 = 1 from by decide +kernel]
        omega⟩

/-- The reshape after the call reads the 1×1 array as a scalar. -/
theorem tail_v18 (c : Dev nD) :
    Pipeline.afterTail₀ cfgs (dats m) 0 (V0 m) [hostOps1] c main_v18 = fun _ => res m c := by
  unfold Pipeline.afterTail₀
  show StableHlo.after hostOps1 _ (Proc.devRef .tc main_v18) = _
  after_results
  have hw : Pipeline.withArrays (cfgs 0).spec c (V0 m c) (fun w => (dats m 0 c).arrAt w (cfgs 0).N)
      (Proc.devRef .tc main_v17) = resArr m c :=
    (Pipeline.withArrays_arr spec0 launch0.win.arr_inj c _ _ 3).trans (final_o m c)
  rw [hw]
  funext i
  rfl

/-- THE KERNEL'S RUN, READ: every weakly fair execution terminates with the scalar result at the mean loss of the
    arguments and the arguments unchanged. -/
theorem run : θ_run defs (onTc (τ := τ) (main (F := Ideal))) ⟨m, fun _ => 0, ρ⟩ fun r => ∀ c : Dev nD,
      r.2.mem ((c.tc : Thread nD τ).loc main_v18) = (fun _ => res m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (tail_v18 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference program's result is the specification's mean loss.

  The reference is read one operation at a time. The gathered array at (r, k, d) is entry d of the k-th picked row of
  tuple r; the twice-broadcast slice of the table at (r, k, d) is entry d of the anchor row r. From these the
  contraction over d is the inner product, the two square roots under the clamp are the norms, their quotient is the
  similarity, and the columns 0 and 1..9 of its exponential make one row's loss. The final sum runs over the rank-1
  index set, which is the range of row numbers.
-/
import proofs.«124811_j34359738990_1_alg».proof.Proof.Gen.ReferenceIdeal.Read
import proofs.«124811_j34359738990_1_alg».proof.Proof.Spec
import proofs.«124811_j34359738990_1_alg».proof.Proof.LibRowGather3
import Idealize.ShloMosaic.Lib.ValueIdx
import Idealize.ShloMosaic.Lib.ValueIdxRank1

noncomputable section

open scoped BigOperators

namespace Cert.RefValue

open Cert.ReferenceIdeal Cert.ReferenceIdeal.Read Idealize.ShloMosaic Idealize.ShloMosaic.ValueIdx

/-! ## The two arrays of rows -/

/-- The start index the gather reads for the pair (r, k) is the tuple's k-th word, a negative one counted from the end. -/
theorem start_eq (t : Cert.Loss.Tuples) (r : Fin 50000) (k : Fin 10) :
    val_main_v5 (F := Ideal) t (ix3 r k (0 : Fin 1)) = Cert.Loss.wrap (t (ix2 r k)) := by
  have e5 : idx_main_v5 (ix3 r k (0 : Fin 1)) = ix2 r k :=
    funext fun a => Fin.ext (by match a with | ⟨0, _⟩ => rfl | ⟨1, _⟩ => rfl)
  rw [val_main_v5_apply, e5, val_main_v4_apply, val_main_v1_apply, val_main_v3_apply, val_main_v0_apply,
    val_main_v2_apply, val_main_c_apply, val_main_c_0_apply]
  rfl

/-- The gathered array at (r, k, d) is entry d of the k-th picked row of tuple r. -/
theorem gathered_eq (f : Cert.Loss.Table) (t : Cert.Loss.Tuples) (r : Fin 50000) (k : Fin 10) (d : Fin 256) :
    val_main_v6 (F := Ideal) f t (ix3 r k d) = Cert.Loss.picked f t r k d := by
  unfold val_main_v6
  rw [Cert.LibRowGather3.gather_row3_apply (by norm_num) _ rfl rfl rfl rfl rfl rfl rfl]
  refine congrArg f (congrArg (fun q => ix2 q d) (Fin.ext ?_))
  show min (val_main_v5 (F := Ideal) t (ix3 r k (0 : Fin 1))).toInt.toNat (200000 - 1)
    = min (Cert.Loss.wrap (t (ix2 r k))).toInt.toNat (200000 - 1)
  rw [start_eq]

/-- The table's first 50000 rows, broadcast over the pairs' axis, at (r, k, d): entry d of the anchor row r. -/
theorem anchored_eq (f : Cert.Loss.Table) (r : Fin 50000) (k : Fin 10) (d : Fin 256) :
    val_main_v9 (F := Ideal) f (ix3 r k d) = Cert.Loss.anchor f r d := by
  rw [val_main_v9_apply, val_main_v8_apply, val_main_v7_apply]
  exact congrArg f (funext fun a => Fin.ext (by match a with | ⟨0, _⟩ => rfl | ⟨1, _⟩ => rfl))

/-- The same before the second broadcast, at (r, 0, d). -/
theorem anchored1_eq (f : Cert.Loss.Table) (r : Fin 50000) (d : Fin 256) :
    val_main_v8 (F := Ideal) f (ix3 r (0 : Fin 1) d) = Cert.Loss.anchor f r d := by
  rw [val_main_v8_apply, val_main_v7_apply]
  exact congrArg f (funext fun a => Fin.ext (by match a with | ⟨0, _⟩ => rfl | ⟨1, _⟩ => rfl))

/-! ## Inner products, norms, similarities -/

/-- The contraction over d at (r, k) is the inner product of the anchor and the picked row. -/
theorem dot_eq (f : Cert.Loss.Table) (t : Cert.Loss.Tuples) (r : Fin 50000) (k : Fin 10) :
    val_main_v11 (F := Ideal) f t (ix2 r k) = Cert.Loss.dotp (Cert.Loss.anchor f r) (Cert.Loss.picked f t r k) := by
  have e : ∀ d : Fin 256, idx_main_v11 (ix2 r k) d = ix3 r k d := fun d =>
    funext fun a => Fin.ext (by match a with | ⟨0, _⟩ => rfl | ⟨1, _⟩ => rfl | ⟨2, _⟩ => rfl)
  rw [val_main_v11_apply, val_main_cst_apply, Ideal.ofBits_def, Cert.Loss.zero_word_add]
  refine Finset.sum_congr rfl fun d _ => ?_
  rw [e, val_main_v10_apply, anchored_eq, gathered_eq, Ideal.mulf_def]

/-- The anchor's clamped norm, at (r, 0). -/
theorem nrm_anchor_eq (f : Cert.Loss.Table) (r : Fin 50000) :
    val_main_v14 (F := Ideal) f (ix2 r (0 : Fin 1)) = Cert.Loss.nrm (Cert.Loss.anchor f r) := by
  have e : ∀ d : Fin 256, idx_main_call0_v1 (ix2 r (0 : Fin 1)) d = ix3 r (0 : Fin 1) d := fun d =>
    funext fun a => Fin.ext (by match a with | ⟨0, _⟩ => rfl | ⟨1, _⟩ => rfl | ⟨2, _⟩ => rfl)
  rw [val_main_v14_apply, val_main_v12_apply, val_main_v13_apply, val_main_cst_1_apply, val_main_call0_v1_apply,
    val_main_call0_cst_apply, Ideal.ofBits_def, Ideal.ofBits_def, Cert.Loss.zero_word_add, Ideal.maximumf_def,
    Ideal.hostUnary_sqrt_def]
  unfold Cert.Loss.nrm Cert.Loss.dotp Cert.Loss.eps
  refine congrArg (fun s => max (Ideal.sqrt s) _) (Finset.sum_congr rfl fun d _ => ?_)
  rw [e, val_main_call0_v0_apply, anchored1_eq, Ideal.mulf_def]

/-- A picked row's clamped norm, at (r, k). -/
theorem nrm_picked_eq (f : Cert.Loss.Table) (t : Cert.Loss.Tuples) (r : Fin 50000) (k : Fin 10) :
    val_main_v17 (F := Ideal) f t (ix2 r k) = Cert.Loss.nrm (Cert.Loss.picked f t r k) := by
  have e : ∀ d : Fin 256, idx_main_call1_v1 (ix2 r k) d = ix3 r k d := fun d =>
    funext fun a => Fin.ext (by match a with | ⟨0, _⟩ => rfl | ⟨1, _⟩ => rfl | ⟨2, _⟩ => rfl)
  rw [val_main_v17_apply, val_main_v15_apply, val_main_v16_apply, val_main_cst_2_apply, val_main_call1_v1_apply,
    val_main_call1_cst_apply, Ideal.ofBits_def, Ideal.ofBits_def, Cert.Loss.zero_word_add, Ideal.maximumf_def,
    Ideal.hostUnary_sqrt_def]
  unfold Cert.Loss.nrm Cert.Loss.dotp Cert.Loss.eps
  refine congrArg (fun s => max (Ideal.sqrt s) _) (Finset.sum_congr rfl fun d _ => ?_)
  rw [e, val_main_call1_v0_apply, gathered_eq, Ideal.mulf_def]

/-- The quotient at (r, k) is the similarity of the anchor and the picked row. -/
theorem sim_eq (f : Cert.Loss.Table) (t : Cert.Loss.Tuples) (r : Fin 50000) (k : Fin 10) :
    val_main_v20 (F := Ideal) f t (ix2 r k)
      = Cert.Loss.sim (Cert.Loss.anchor f r) (Cert.Loss.picked f t r k) := by
  have e : idx_main_v18 (ix2 r k) = ix2 r (0 : Fin 1) :=
    funext fun a => Fin.ext (by match a with | ⟨0, _⟩ => rfl | ⟨1, _⟩ => rfl)
  rw [val_main_v20_apply, val_main_v19_apply, val_main_v18_apply, e, dot_eq, nrm_anchor_eq, nrm_picked_eq,
    Ideal.hostDivf_def, Ideal.mulf_def]
  rfl

/-- The weight at (r, k): the exponential of the similarity (the quotient by the word of one changes nothing). -/
theorem weight_eq (f : Cert.Loss.Table) (t : Cert.Loss.Tuples) (r : Fin 50000) (k : Fin 10) :
    val_main_v23 (F := Ideal) f t (ix2 r k)
      = Ideal.exp (Cert.Loss.sim (Cert.Loss.anchor f r) (Cert.Loss.picked f t r k)) := by
  rw [val_main_v23_apply, val_main_v22_apply, val_main_cst_3_apply, val_main_v21_apply, sim_eq, Ideal.hostDivf_def,
    Ideal.ofBits_def, Cert.Loss.div_one_word, Ideal.hostUnary_exp_def]

/-! ## One row's loss, and the mean -/

/-- The negated log of column 0 over the sum of columns 1..9, at row r, is that row's loss. -/
theorem rowLoss_eq (f : Cert.Loss.Table) (t : Cert.Loss.Tuples) (r : Fin 50000) :
    val_main_v30 (F := Ideal) f t (ix1 r)
      = Cert.Loss.rowLoss (Cert.Loss.anchor f r) (Cert.Loss.picked f t r) := by
  have e0 : idx_main_v24 (idx_main_v25 (ix1 r)) = ix2 r (0 : Fin 10) :=
    funext fun a => Fin.ext (by match a with | ⟨0, _⟩ => exact Nat.div_one _ | ⟨1, _⟩ => rfl)
  have e1 : ∀ j : Fin 9, idx_main_v26 (idx_main_v27 (ix1 r) j) = ix2 r j.succ := fun j =>
    funext fun a => Fin.ext (by match a with | ⟨0, _⟩ => rfl | ⟨1, _⟩ => exact Nat.add_comm 1 j.val)
  rw [val_main_v30_apply, val_main_v29_apply, val_main_v28_apply, val_main_v25_apply, val_main_v24_apply, e0,
    weight_eq, val_main_v27_apply, val_main_cst_4_apply, Ideal.ofBits_def, Cert.Loss.zero_word_add,
    Ideal.hostNegf_def, Ideal.negf_def, Ideal.hostUnary_log_def, Ideal.hostDivf_def]
  unfold Cert.Loss.rowLoss
  refine congrArg (fun s => -Ideal.log (Ideal.div _ s)) (Finset.sum_congr rfl fun j _ => ?_)
  rw [val_main_v26_apply, e1, weight_eq]

/-- The reference's result, at its one index, is the mean of the rows' losses. -/
theorem ref_value (f : Cert.Loss.Table) (t : Cert.Loss.Tuples) (i : Cert.ReferenceIdeal.S_.Idx) :
    Cert.ReferenceIdeal.Read.val_main_v32 (F := Ideal) f t i = Cert.Loss.result f t := by
  have hs : (∑ j : S50000.Idx, val_main_v30 (F := Ideal) f t j)
      = ∑ r : Fin 50000, Cert.Loss.rowLoss (Cert.Loss.anchor f r) (Cert.Loss.picked f t r) := by
    rw [← Equiv.sum_comp (idxEquiv1 (n := 50000)).symm]
    exact Finset.sum_congr rfl fun r _ => rowLoss_eq f t r
  rw [val_main_v32_apply, val_main_v31_apply, val_main_cst_5_apply, val_main_cst_6_apply, Ideal.ofBits_def,
    Ideal.ofBits_def, Cert.Loss.zero_word_add, Ideal.hostDivf_def, hs]
  rfl

end Cert.RefValue

end
-- ==== Proof.lean ====
/-
  A contrastive cosine-similarity loss: the kernel against its jnp reference, over the extended reals.

  Both programs take a table of 200000 rows of 256 numbers and 50000 tuples of ten row indices, and return
  the mean over the tuples r of  − log ( exp (sim a_r x_{r,0}) / ∑_{k=1..9} exp (sim a_r x_{r,k}) ),  where a_r is
  table row r, x_{r,k} the table row at the tuple's k-th index (a negative index counted from the end, the index
  clamped into the table) and sim the cosine similarity with both norms clamped from below (Proof/Spec.lean).

  The reference gathers all ten rows of every tuple at once, divides every weight by one, negates the log and sums
  the 50000 row losses in one sum (Proof/RefValue.lean, over the generated read of the reference).
  The kernel gathers the positive column and the nine negative columns separately, walks the rows in 125 tiles of
  400, writes the negation as zero minus the log, and keeps a running total in a scratch cell: reset at the first
  tile, one tile's sum added per grid point, divided by the row count and stored at the last (Proof/Pieces.lean: what
  each control case leaves; Proof/Payload.lean: the body's arithmetic at coordinates; Proof/Blocks.lean: each staged
  block as rows of the specification; Proof/Accum.lean and Proof/Final.lean: the induction over the grid, the one
  write-back and the reshape after the call).
  The two are one extended real by three laws that need no finiteness: x / 1 = x, 0 − x = −x, and a sum over 50000
  rows is the sum over the tiles of the tiles' sums, + being commutative and associative at the infinities too. So the
  precondition is never opened.

  The three frames are the generated ones (the reference's is its generated run with the result dropped); the ideal
  pass rewrote nothing, so `preserves` is `True`.
-/
import proofs.«124811_j34359738990_1_alg».proof.Defs
import proofs.«124811_j34359738990_1_alg».proof.Proof.Gen.Kernel
import proofs.«124811_j34359738990_1_alg».proof.Proof.Gen.Kernel.Skeleton
import proofs.«124811_j34359738990_1_alg».proof.Proof.Gen.Kernel.Launch
import proofs.«124811_j34359738990_1_alg».proof.Proof.Gen.Kernel.Points
import proofs.«124811_j34359738990_1_alg».proof.Proof.Gen.Kernel.Frame
import proofs.«124811_j34359738990_1_alg».proof.Proof.Gen.KernelIdeal
import proofs.«124811_j34359738990_1_alg».proof.Proof.Gen.KernelIdeal.Skeleton
import proofs.«124811_j34359738990_1_alg».proof.Proof.Gen.KernelIdeal.Launch
import proofs.«124811_j34359738990_1_alg».proof.Proof.Gen.KernelIdeal.Points
import proofs.«124811_j34359738990_1_alg».proof.Proof.Gen.KernelIdeal.Frame
import proofs.«124811_j34359738990_1_alg».proof.Proof.Gen.ReferenceIdeal
import proofs.«124811_j34359738990_1_alg».proof.Proof.Gen.Pre_finite_inputs
import proofs.«124811_j34359738990_1_alg».proof.Proof.Gen.ReferenceIdeal.Run
import proofs.«124811_j34359738990_1_alg».proof.Proof.Gen.ReferenceIdeal.Read
import proofs.«124811_j34359738990_1_alg».proof.Proof.Final
import proofs.«124811_j34359738990_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the scalar at the mean loss of arguments that agree. -/
theorem algebraic : Cert.algebraic_KernelIdeal_ReferenceIdeal := by
  intro m ρ m' ρ' _ hagree
  refine ⟨fun c _ => Cert.KernelIdeal.Final.res m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]
  funext i
  exact Cert.RefValue.ref_value _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
